-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x256 : Shape := ⟨2, ![128, 256]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x256 .f32) (main_arg2 : FVec F S128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x256 : Shape := ⟨2, ![128, 256]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x128 : Shape := ⟨2, ![128, 128]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 37
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S128x128, .f32⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x128, .f32⟩
  | .hbm, ⟨35, _⟩ => ⟨S128x128, .bf16⟩
  | .hbm, ⟨36, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x256 : Shape := ⟨2, ![128, 256]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S256x128 : Shape := ⟨2, ![256, 128]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x256, .f32⟩
  | .hbm, ⟨31, _⟩ => ⟨S256x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000, .f32⟩
  | .hbm, ⟨39, _⟩ => ⟨S100000x1, .f32⟩
  | .hbm, ⟨40, _⟩ => ⟨S100000x1, .f32⟩
  | .hbm, ⟨41, _⟩ => ⟨S_, .f32⟩
  | .hbm, ⟨42, _⟩ => ⟨S100000x1, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.BundleSpec.lean ====
/-
  The mathematics both programs compute, stated once over the argument arrays.

  For a node `n` with features `h n` and aggregated neighbour features `c n` (both of width 128), a weight
  matrix `W` of 128 rows and 256 columns and a bias `b`, the affine map is
    `lin n o = (∑ k, h n k · W o k  +  ∑ k, c n k · W o (128 + k)) + b o`,
  that is row `o` of `W` applied to the concatenation of `h n` and `c n`. The result is that row vector divided by
  the larger of its Euclidean norm and a fixed threshold, then clamped below at zero.

  The one algebraic law used is that a sum over 256 indices is the sum over the first 128 plus the sum over the
  last 128. It holds in any commutative additive monoid, so also on the extended reals with their infinities: no
  finiteness of the inputs is needed.
-/
import Idealize.ShloMosaic.PureOps.Ideal
import Idealize.ShloMosaic.PureOps.Ideal.Laws
import Idealize.ShloMosaic.Lib.ValueIdx

noncomputable section

namespace Cert.Bundle

open Idealize.ShloMosaic Idealize.ShloMosaic.ValueIdx

/-- Node features, and the result: 100000 nodes of width 128. -/
abbrev Nodes : Shape := ⟨2, ![100000, 128]⟩
/-- The weight matrix: 128 output rows, 256 input columns. -/
abbrev Weights : Shape := ⟨2, ![128, 256]⟩
/-- The bias: one entry per output. -/
abbrev Bias : Shape := ⟨1, ![128]⟩

/-- Column `k` of the first half of the weight matrix's columns. -/
abbrev lo (k : Fin 128) : Fin 256 := ⟨k.val, Nat.lt_of_lt_of_le k.isLt (by decide)⟩
/-- Column `k` of the second half of the weight matrix's columns. -/
abbrev hi (k : Fin 128) : Fin 256 := ⟨128 + k.val, by have := k.isLt; omega⟩

/-- A sum over 256 indices is the sum over the first 128 plus the sum over the last 128. -/
theorem sum_halves {M : Type*} [AddCommMonoid M] (f : Fin 256 → M) :
    ∑ j : Fin 256, f j = ∑ k : Fin 128, f (lo k) + ∑ k : Fin 128, f (hi k) :=
  Fin.sum_univ_add (a := 128) (b := 128) f

/-- Output `o` of the affine map at node `n`: row `o` of `W` against `h n` followed by `c n`, plus the bias. -/
def lin (h c : Nodes.Idx → EReal) (W : Weights.Idx → EReal) (b : Bias.Idx → EReal) (n : Fin 100000) (o : Fin 128) : EReal :=
  (∑ k : Fin 128, h (ix2 n k) * W (ix2 o (lo k)) + ∑ k : Fin 128, c (ix2 n k) * W (ix2 o (hi k))) + b (ix1 o)

/-- The squared Euclidean norm of node `n`'s affine image. -/
def sqnorm (h c : Nodes.Idx → EReal) (W : Weights.Idx → EReal) (b : Bias.Idx → EReal) (n : Fin 100000) : EReal :=
  ∑ o : Fin 128, lin h c W b n o * lin h c W b n o

/-- The result at node `n`, output `o`: the affine image over the larger of its norm and the threshold, clamped at zero. -/
def out (h c : Nodes.Idx → EReal) (W : Weights.Idx → EReal) (b : Bias.Idx → EReal) (n : Fin 100000) (o : Fin 128) : EReal :=
  max (Ideal.div (lin h c W b n o) (max (Ideal.sqrt (sqnorm h c W b n)) (Ideal.ofBits .f32 0x2B8CBCCC#32)))
    (Ideal.ofBits .f32 0x00000000#32)

/-- The whole result array as one function of the argument arrays. -/
def bundle (h c : Nodes.Idx → EReal) (W : Weights.Idx → EReal) (b : Bias.Idx → EReal) : Nodes.Idx → EReal :=
  fun i => out h c W b (i 0) (i 1)

theorem bundle_ix2 (h c : Nodes.Idx → EReal) (W : Weights.Idx → EReal) (b : Bias.Idx → EReal) (n : Fin 100000) (o : Fin 128) :
    bundle h c W b (ix2 n o) = out h c W b n o := rfl

end Cert.Bundle

end
-- ==== Proof.RefBundle.lean ====
/-
  The reference's result is the bundle function of its arguments.

  The reference concatenates each node's features `h n` with its aggregated neighbour features `c n` into one row
  of width 256, multiplies by the transposed weight matrix, adds the bias, and normalises each row by the larger of
  its Euclidean norm and the threshold before clamping at zero. Read index by index: column `j < 128` of the
  concatenated row is `h n j` and column `128 + k` is `c n k`, so the product's sum over 256 columns splits into
  the two half sums of the affine map; the squared norm is the sum over the 128 outputs of the affine map's squares,
  added to a zero initial value.

  The aggregated neighbour features themselves (a gather of rows by source node, summed by destination node and
  divided by the clamped in-degree) are carried as one unopened function of the arguments.
-/
import proofs.«109120_j6957847019592_1_alg».proof.Proof.Gen.ReferenceIdeal.Read
import proofs.«109120_j6957847019592_1_alg».proof.Proof.BundleSpec

noncomputable section

namespace Cert.ReferenceIdeal.RefValue

open Cert.ReferenceIdeal Cert.ReferenceIdeal.Gen Cert.ReferenceIdeal.Read Idealize.ShloMosaic Idealize.ShloMosaic.ValueIdx Cert.Bundle

variable (x0 : (⟨S100000x128, .f32⟩ : BufTy).Contents (Elt Ideal)) (x1 : (⟨S128x256, .f32⟩ : BufTy).Contents (Elt Ideal))
  (x2 : (⟨S128, .f32⟩ : BufTy).Contents (Elt Ideal)) (x3 x4 : (⟨S1600000, .i32⟩ : BufTy).Contents (Elt Ideal))

/-- The aggregated neighbour features: the mean over incoming edges of the source nodes' rows. -/
abbrev agg : (⟨S100000x128, .f32⟩ : BufTy).Contents (Elt Ideal) := val_main_v18 (F := Ideal) x0 x3 x4

/-- A column in the first half of the concatenated row is the node's own feature. -/
theorem cat_lo (n : Fin 100000) (o : Fin 128) (k : Fin 128) :
    val_main_v19 (F := Ideal) x0 x3 x4 (lidx_main_v21 (ix2 n o) (lo k)) = x0 (ix2 n k) := by
  unfold val_main_v19
  generalize val_main_v18 (F := Ideal) x0 x3 x4 = y
  exact concatenate_pair_apply_left (t := S100000x256) (s₁ := S100000x128) (s₂ := S100000x128) (1 : Fin 2) x0 y
    concatenates_S100000x128_S100000x128_S100000x256_d1 (lidx_main_v21 (ix2 n o) (lo k)) rfl (ix2 n k)
    (fun b => by match b with | ⟨0, _⟩ => rfl | ⟨1, _⟩ => rfl)

/-- A column in the second half of the concatenated row is the aggregated feature 128 columns earlier. -/
theorem cat_hi (n : Fin 100000) (o : Fin 128) (k : Fin 128) :
    val_main_v19 (F := Ideal) x0 x3 x4 (lidx_main_v21 (ix2 n o) (hi k)) = agg x0 x3 x4 (ix2 n k) := by
  unfold val_main_v19 agg
  generalize val_main_v18 (F := Ideal) x0 x3 x4 = y
  exact concatenate_pair_apply_right (t := S100000x256) (s₁ := S100000x128) (s₂ := S100000x128) (1 : Fin 2) x0 y
    concatenates_S100000x128_S100000x128_S100000x256_d1 (lidx_main_v21 (ix2 n o) (hi k)) rfl rfl (ix2 n k)
    (fun b hb => by match b with | ⟨0, _⟩ => rfl | ⟨1, _⟩ => exact absurd rfl hb)
    (by show k.val + 128 = 128 + k.val; omega)

/-- The transposed weight matrix at (column `j`, output `o`) is the weight matrix at (`o`, `j`). -/
theorem wt (n : Fin 100000) (o : Fin 128) (j : Fin 256) :
    val_main_v20 (F := Ideal) x1 (ridx_main_v21 (ix2 n o) j) = x1 (ix2 o j) := by
  rw [val_main_v20_apply]
  exact congrArg x1 (funext fun a => Fin.ext (by match a with | ⟨0, _⟩ => rfl | ⟨1, _⟩ => rfl))

/-- The product of the concatenated row with the transposed weights: the two half sums. -/
theorem dot_eq (n : Fin 100000) (o : Fin 128) :
    val_main_v21 (F := Ideal) x0 x1 x3 x4 (ix2 n o)
      = ∑ k : Fin 128, x0 (ix2 n k) * x1 (ix2 o (lo k)) + ∑ k : Fin 128, agg x0 x3 x4 (ix2 n k) * x1 (ix2 o (hi k)) := by
  refine (val_main_v21_apply x0 x1 x3 x4 (ix2 n o)).trans ?_
  refine (sum_halves _).trans ?_
  refine congrArg₂ (· + ·) ?_ ?_
  · exact Finset.sum_congr rfl fun k _ => congrArg₂ (· * ·) (cat_lo x0 x3 x4 n o k) (wt x1 n o (lo k))
  · exact Finset.sum_congr rfl fun k _ => congrArg₂ (· * ·) (cat_hi x0 x3 x4 n o k) (wt x1 n o (hi k))

/-- The product plus the bias is the affine map. -/
theorem lin_eq (n : Fin 100000) (o : Fin 128) :
    val_main_v24 (F := Ideal) x0 x1 x2 x3 x4 (ix2 n o) = lin x0 (agg x0 x3 x4) x1 x2 n o := by
  refine (val_main_v24_apply x0 x1 x2 x3 x4 (ix2 n o)).trans ?_
  unfold lin
  refine congrArg₂ (· + ·) (dot_eq x0 x1 x3 x4 n o) ?_
  refine (val_main_v23_apply x2 (ix2 n o)).trans ((val_main_v22_apply x2 _).trans ?_)
  exact congrArg x2 (funext fun a => Fin.ext (by match a with | ⟨0, _⟩ => rfl))

/-- The row's norm against the threshold. -/
theorem norm_eq (n : Fin 100000) (o : Fin 128) :
    val_main_v27 (F := Ideal) x0 x1 x2 x3 x4 (idx_main_v28 (ix2 n o))
      = max (Ideal.sqrt (sqnorm x0 (agg x0 x3 x4) x1 x2 n)) (Ideal.ofBits .f32 0x2B8CBCCC#32) := by
  rw [val_main_v27_apply, val_main_v25_apply, val_main_call0_v2_apply, val_main_call0_v1_apply, val_main_v26_apply,
    val_main_cst_4_apply, val_main_call0_cst_apply]
  have hs : ∑ k : Fin 128, val_main_call0_v0 (F := Ideal) x0 x1 x2 x3 x4
        (idx_main_call0_v1 (idx_main_call0_v2 (idx_main_v28 (ix2 n o))) k) = sqnorm x0 (agg x0 x3 x4) x1 x2 n := by
    unfold sqnorm
    refine Finset.sum_congr rfl fun k _ => ?_
    have e : idx_main_call0_v1 (idx_main_call0_v2 (idx_main_v28 (ix2 n o))) k = ix2 n k :=
      funext fun a => Fin.ext (by match a with | ⟨0, _⟩ => rfl | ⟨1, _⟩ => rfl)
    rw [e, val_main_call0_v0_apply, lin_eq]
    rfl
  rw [hs]
  show max (Ideal.sqrt (Ideal.ofBits .f32 0x00000000#32 + _)) (Ideal.ofBits .f32 0x2B8CBCCC#32) = _
  rw [Ideal.ofBits_zero_f32, zero_add]

/-- THE REFERENCE'S RESULT is the bundle function of the features, the aggregated features, the weights and the bias. -/
theorem result_eq : val_main_v30 (F := Ideal) x0 x1 x2 x3 x4 = bundle x0 (agg x0 x3 x4) x1 x2 := by
  funext i
  obtain ⟨n, o, rfl⟩ : ∃ (n : Fin 100000) (o : Fin 128), i = ix2 n o := ⟨i 0, i 1, eq_ix2 i⟩
  rw [bundle_ix2, val_main_v30_apply, val_main_v29_apply, val_main_v28_apply, norm_eq, lin_eq, val_main_call1_v0_apply,
    val_main_call1_cst_apply]
  rfl

end Cert.ReferenceIdeal.RefValue

end
-- ==== Proof.TilePayload.lean ====
/-
  What the kernel's body computes on one tile of 5000 nodes, index by index.

  The body multiplies the tile of node features and the tile of aggregated features by the two halves of the
  transposed weight matrix, adds the two products and the bias, and then normalises each row: the row's squares are
  summed along the 128 outputs, the square root is compared with the threshold, and the row is divided by the larger
  of the two before being clamped at zero. On the extended reals the narrowing of the matrix operands to a shorter
  float format is the identity and a matrix product accumulated into zero is the plain sum of products, so the tile's
  entry at (row r, output o) is the bundle formula with the tile's rows in place of the array's.
-/
import proofs.«109120_j6957847019592_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-- The matrix product's dimensions: rows of the left operand against columns of the right one. -/
abbrev D : DotDims S5000x128 S128x128 S5000x128 := dot_S5000x128_S128x128_S5000x128_1_0_0_1_n_n

/-! ## Layout steps read at an index -/

/-- A vector of row values viewed as one column: entry (r, 0) is entry r. -/
theorem col_cast_apply (x : FVec Ideal S5000 .f32) (h : S5000.ShapeCasts S5000x1) (r : Fin 5000) (u : Fin 1) :
    shapeCast S5000x1 x h (ix2 r u) = x (ix1 r) :=
  shapeCast_apply x h _ _ (by
    have hu : u.val = 0 := by omega
    rw [Shape.rowMajor_val_two, Shape.rowMajor_val_one]
    show r.val = r.val * 1 + u.val
    rw [hu]; omega)

/-- One column repeated across the 128 outputs: entry (r, o) is the column's entry r. -/
theorem col_bcast_apply (x : FVec Ideal S5000x1 .f32) (h : S5000x1.Broadcasts S5000x128) (r : Fin 5000) (o : Fin 128) :
    broadcastTo S5000x128 x h (ix2 r o) = x (ix2 r (0 : Fin 1)) := by
  refine broadcastTo_apply x h (ix2 r o) (ix2 r (0 : Fin 1)) fun ax => ?_
  match ax with
  | ⟨0, _⟩ => show r.val = if (5000 : Nat) = 1 then 0 else r.val; rw [if_neg (by decide)]
  | ⟨1, _⟩ => show 0 = if (1 : Nat) = 1 then 0 else o.val; rw [if_pos rfl]

/-- The sum along a row: over the 128 outputs of that row. -/
theorem rowsum_apply (src : FVec Ideal S5000x128 .f32) (h : S5000x128.Reduces [1] S5000) (hφ : FKind.Formats .f32)
    (hacc : (0x00000000#32 : BitVec 32) = FKind.add.neutral .f32 hφ) (r : Fin 5000) :
    multiReduction .add [1] S5000 src 0x00000000#32 h hφ hacc (ix1 r) = ∑ k : Fin 128, src (ix2 r k) := by
  refine (Ideal.multiReduction_add_single src 0x00000000#32 h hφ hacc (ix1 r)).trans ?_
  exact Finset.sum_congr rfl fun k _ => congrArg src (funext fun a => Fin.ext (by
    match a with
    | ⟨0, _⟩ => rfl
    | ⟨1, _⟩ => rfl))

/-! ## The matrix product into a zero accumulator is the sum of products -/

theorem lhs_D_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_D_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_D_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_D_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, o) of the product of a 5000 × 128 tile with a 128 × 128 matrix, accumulated into zero. -/
theorem matmul_zero_apply (a : FVec Ideal S5000x128 .bf16) (w : FVec Ideal S128x128 .bf16) (r : Fin 5000) (o : Fin 128) :
    matmul dot_S5000x128_S128x128_S5000x128_1_0_0_1_n_n none a w (constant (F := Ideal) S5000x128 .f32 0x00000000#32) (ix2 r o)
      = ∑ k : Fin 128, a (ix2 r k) * w (ix2 k o) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r o) ((ValueIdx.contrEquiv1 dot_S5000x128_S128x128_S5000x128_1_0_0_1_n_n 128 rfl rfl).symm k) = ix2 r k := funext fun ax => Fin.ext (by
    match ax with
    | ⟨0, _⟩ => exact lhs_D_0 _ _
    | ⟨1, _⟩ => exact (lhs_D_1 _ _).trans hk)
  have er : dot_S5000x128_S128x128_S5000x128_1_0_0_1_n_n.rhsIdx (ix2 r o) ((ValueIdx.contrEquiv1 dot_S5000x128_S128x128_S5000x128_1_0_0_1_n_n 128 rfl rfl).symm k) = ix2 k o := funext fun ax => Fin.ext (by
    match ax with
    | ⟨0, _⟩ => exact (rhs_D_0 _ _).trans hk
    | ⟨1, _⟩ => exact rhs_D_1 _ _)
  rw [el, er]

/-! ## The body's value -/

variable (x0 x1 : FVec Ideal S5000x128 .f32) (x2 x3 : FVec Ideal S128x128 .bf16) (x4 : FVec Ideal S128 .f32)

/-- The tile's affine image: the two products and the bias, as the body spells them. -/
def affine : FVec Ideal S5000x128 .f32 :=
  addf (addf (matmul dot_S5000x128_S128x128_S5000x128_1_0_0_1_n_n none (truncf .bf16 x0 bitsLt_bf16_f32) (shapeCast S128x128 x2 shapeCasts_S128x128_S128x128) (constant (F := Ideal) S5000x128 .f32 0x00000000#32))
      (matmul dot_S5000x128_S128x128_S5000x128_1_0_0_1_n_n none (truncf .bf16 (shapeCast S5000x128 x1 shapeCasts_S5000x128_S5000x128) bitsLt_bf16_f32) (shapeCast S128x128 x3 shapeCasts_S128x128_S128x128) (constant (F := Ideal) S5000x128 .f32 0x00000000#32)))
    (broadcastTo S5000x128 (shapeCast S1x128 x4 shapeCasts_S128_S1x128) broadcasts_S1x128_S5000x128)

/-- The tile's affine image at (r, o), as sums over the 128 input columns of each half. -/
def tlin (r : Fin 5000) (o : Fin 128) : EReal :=
  (∑ k : Fin 128, x0 (ix2 r k) * x2 (ix2 k o) + ∑ k : Fin 128, x1 (ix2 r k) * x3 (ix2 k o)) + x4 (ix1 o)

theorem affine_apply (r : Fin 5000) (o : Fin 128) : affine x0 x1 x2 x3 x4 (ix2 r o) = tlin x0 x1 x2 x3 x4 r o := by
  unfold affine tlin
  rw [addf_apply, addf_apply, matmul_zero_apply, matmul_zero_apply, broadcastTo_1b_ab_apply, shapeCast_a_1a_apply,
    shapeCast_self x2, shapeCast_self x3, shapeCast_self x1]
  rfl

/-- The body's stored value is the affine image divided row by row by the larger of its norm and the threshold, clamped. -/
theorem pay_eq : k0_pay1 (F := Ideal) x0 x1 x2 x3 x4
    = maximumf (divf (affine x0 x1 x2 x3 x4)
        (broadcastTo S5000x128 (maximumf (sqrt (shapeCast S5000x1 (multiReduction .add [1] S5000 (mulf (affine x0 x1 x2 x3 x4) (affine x0 x1 x2 x3 x4)) 0x00000000#32 reduces_S5000x128_S5000 (.inl rfl) rfl) shapeCasts_S5000_S5000x1))
          (broadcast S5000x1 (Scalar.ofBits (F := Ideal) .f32 0x2B8CBCCC#32))) broadcasts_S5000x1_S5000x128))
      (broadcast S5000x128 (Scalar.ofBits (F := Ideal) .f32 0x00000000#32)) := rfl

/-- THE TILE'S ENTRY at (r, o). -/
theorem pay_apply (r : Fin 5000) (o : Fin 128) :
    k0_pay1 (F := Ideal) x0 x1 x2 x3 x4 (ix2 r o)
      = max (Ideal.div (tlin x0 x1 x2 x3 x4 r o)
          (max (Ideal.sqrt (∑ o' : Fin 128, tlin x0 x1 x2 x3 x4 r o' * tlin x0 x1 x2 x3 x4 r o')) (Ideal.ofBits .f32 0x2B8CBCCC#32)))
        (Ideal.ofBits .f32 0x00000000#32) := by
  rw [pay_eq, maximumf_apply, divf_apply, col_bcast_apply, maximumf_apply, affine_apply]
  show max (Ideal.div _ (max (Ideal.sqrt (shapeCast S5000x1 _ shapeCasts_S5000_S5000x1 (ix2 r (0 : Fin 1)))) _)) _ = _
  rw [col_cast_apply, broadcast_apply, broadcast_apply]
  refine congrArg (fun s => max (Ideal.div _ (max (Ideal.sqrt s) _)) _) ?_
  refine (rowsum_apply _ reduces_S5000x128_S5000 (.inl rfl) rfl r).trans ?_
  exact Finset.sum_congr rfl fun o' _ => by rw [mulf_apply, affine_apply]

end Cert.KernelIdeal.Tile

end
-- ==== Proof.EntryArrays.lean ====
/-
  What the kernel's launch finds in the arrays its windows read.

  Before the launch the host computes, from the arguments, the aggregated neighbour features (a gather of the
  feature rows by each edge's source node, summed by destination node and divided by the clamped in-degree) and the
  two halves of the transposed weight matrix. The aggregation is the same chain of operations the reference applies,
  so it is carried as that one function of the arguments and never opened. The weight halves are read at an index:
  entry (k, o) of the first half is the weight matrix at (o, k), entry (k, o) of the second half is the weight matrix
  at (o, 128 + k); narrowing them to a shorter float format changes nothing on the extended reals.
-/
import proofs.«109120_j6957847019592_1_alg».proof.Proof.Gen.KernelIdeal.Frame
import proofs.«109120_j6957847019592_1_alg».proof.Proof.Gen.ReferenceIdeal.Read
import proofs.«109120_j6957847019592_1_alg».proof.Proof.BundleSpec
import Idealize.ShloMosaic.Lib.StableHlo.Run
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Bundle

variable (m : (ℓ : Loc nD τ sig) → Buf (Elt Ideal) ℓ)

/-- The node features as launched. -/
abbrev feat (c : Dev nD) : Nodes.Idx → EReal := m ((c : Thread nD τ).loc main_arg0)
/-- The weight matrix as launched. -/
abbrev wts (c : Dev nD) : Weights.Idx → EReal := m ((c : Thread nD τ).loc main_arg1)
/-- The bias as launched. -/
abbrev bias (c : Dev nD) : Bias.Idx → EReal := m ((c : Thread nD τ).loc main_arg2)

/-- The aggregated neighbour features: the mean, over each node's incoming edges, of the source nodes' feature rows —
    the reference's own chain of host operations, applied to the launch contents. -/
def aggr (c : Dev nD) : Nodes.Idx → EReal :=
  Cert.ReferenceIdeal.Read.val_main_v18 (F := Ideal) (m ((c : Thread nD τ).loc main_arg0)) (m ((c : Thread nD τ).loc main_arg3))
    (m ((c : Thread nD τ).loc main_arg4))

set_option maxHeartbeats 2000000 in
set_option maxRecDepth 8192 in
/-- The launch finds the aggregated features in the array its second window reads. -/
theorem V_aggr (c : Dev nD) : (V m c main_v18 : S100000x128.Idx → EReal) = aggr m c := by
  dsimp only [V, hostOps0]
  after_results_simp <;> rfl

/-- The first half of the transposed weights, as the host lays it out. -/
theorem V_wlo (c : Dev nD) : (V m c main_v21 : S128x128.Idx → EReal)
    = transpose S128x128 [1, 0] (extractStridedSlice S128x128 ![0, 0] (wts m c) slices_S128x256_S128x128_0_0) transposes_S128x128_S128x128_1_0 := by
  dsimp only [V, hostOps0]
  after_results
  rfl

/-- The second half of the transposed weights, as the host lays it out. -/
theorem V_whi (c : Dev nD) : (V m c main_v24 : S128x128.Idx → EReal)
    = transpose S128x128 [1, 0] (extractStridedSlice S128x128 ![0, 128] (wts m c) slices_S128x256_S128x128_0_128) transposes_S128x128_S128x128_1_0 := by
  dsimp only [V, hostOps0]
  after_results
  rfl

/-- Entry (k, o) of the first half is the weight of input column k for output o. -/
theorem wlo_apply (c : Dev nD) (k o : Fin 128) : (V m c main_v21 : S128x128.Idx → EReal) (ix2 k o) = wts m c (ix2 o (lo k)) :=
  (congrFun (V_wlo m c) (ix2 k o)).trans ((transpose_ix2_apply _ transposes_S128x128_S128x128_1_0 k o).trans
    (slice2_axis1_apply 0 (wts m c) slices_S128x256_S128x128_0_0 o k (lo k) (Nat.zero_add _).symm))

/-- Entry (k, o) of the second half is the weight of input column 128 + k for output o. -/
theorem whi_apply (c : Dev nD) (k o : Fin 128) : (V m c main_v24 : S128x128.Idx → EReal) (ix2 k o) = wts m c (ix2 o (hi k)) :=
  (congrFun (V_whi m c) (ix2 k o)).trans ((transpose_ix2_apply _ transposes_S128x128_S128x128_1_0 k o).trans
    (slice2_axis1_apply 128 (wts m c) slices_S128x256_S128x128_0_128 o k (hi k) rfl))

end Cert.KernelIdeal.Entry

end
-- ==== Proof.NodeArray.lean ====
/-
  From tiles to the whole array: the kernel's result is the bundle function of its arguments.

  Grid point t works on the tile of nodes 5000·t … 5000·t + 4999: its two row windows hold those rows of the
  features and of the aggregated features, its three resident windows hold the two weight halves and the bias whole.
  So row r of the tile is node 5000·t + r of the arrays, the tile formula of the body is the bundle formula at that
  node, and what point t writes back is block t of the bundle function. The twenty blocks cover all 100000 rows
  (row n lies in block n / 5000), hence the result array is the bundle function everywhere.
-/
import proofs.«109120_j6957847019592_1_alg».proof.Proof.Gen.KernelIdeal.Value
import proofs.«109120_j6957847019592_1_alg».proof.Proof.BundleSpec
import proofs.«109120_j6957847019592_1_alg».proof.Proof.TilePayload
import proofs.«109120_j6957847019592_1_alg».proof.Proof.EntryArrays

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Bundle Cert.KernelIdeal.Entry Cert.KernelIdeal.Tile

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The block index of each window at each grid point: the row windows and the result move with the point along the
    nodes, the weight halves and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The node that row r of grid point t's tile stands for. -/
def node (t : Fin cfg0.N) (r : Fin 5000) : Fin 100000 :=
  ⟨t.val * 5000 + r.val, by have h1 := t.isLt; have h2 : cfg0.N = 20 := N_0; have h3 := r.isLt; omega⟩

/-! ## The windows' tiles, over the literal tile shapes -/

abbrev featTile (c : Dev nD) (t : Fin cfg0.N) : FVec Ideal S5000x128 .f32 := iblk m c 0 t
abbrev aggrTile (c : Dev nD) (t : Fin cfg0.N) : FVec Ideal S5000x128 .f32 := iblk m c 1 t
abbrev wloTile (c : Dev nD) (t : Fin cfg0.N) : FVec Ideal S128x128 .bf16 := iblk m c 2 t
abbrev whiTile (c : Dev nD) (t : Fin cfg0.N) : FVec Ideal S128x128 .bf16 := iblk m c 3 t
abbrev biasTile (c : Dev nD) (t : Fin cfg0.N) : FVec Ideal S128 .f32 := iblk m c 4 t

/-! ### Reading an arbitrary array through each window's block

    Stated for an arbitrary array `X`, so that nothing about the array's own contents is ever opened. -/

/-- Row r, column k of the first row window's block at point t is the array's entry at node 5000·t + r. -/
theorem rows0_read (X : S100000x128.Idx → EReal) (t : Fin cfg0.N) (r : Fin 5000) (k : Fin 128) :
    ((cfg0.win 0).blk t).view.read (Elt Ideal) X (ix2 r k) = X (ix2 (node t r) k) := by
  obtain ⟨e0, e1, -⟩ := idx_facts t
  show X (((cfg0.win 0).blk t).view.emb (ix2 r k)) = _
  refine congrArg X (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

/-- The same for the second row window. -/
theorem rows1_read (X : S100000x128.Idx → EReal) (t : Fin cfg0.N) (r : Fin 5000) (k : Fin 128) :
    ((cfg0.win 1).blk t).view.read (Elt Ideal) X (ix2 r k) = X (ix2 (node t r) k) := by
  obtain ⟨-, -, e0, e1, -⟩ := idx_facts t
  show X (((cfg0.win 1).blk t).view.emb (ix2 r k)) = _
  refine congrArg X (funext fun a => Fin.ext ?_)
  match a with
  | ⟨0, _⟩ => show win0_1.index t (0 : Fin 2) * 5000 + 1 * r.val = t.val * 5000 + r.val; omega
  | ⟨1, _⟩ => show win0_1.index t (1 : Fin 2) * 128 + 1 * k.val = k.val; omega

/-- A resident 128 × 128 window's block is its whole array at every point. -/
theorem whole2_read (X : S128x128.Idx → EReal) (t : Fin cfg0.N) (k o : Fin 128) :
    ((cfg0.win 2).blk t).view.read (Elt Ideal) X (ix2 k o) = X (ix2 k o) := by
  obtain ⟨-, -, -, -, e0, e1, -⟩ := idx_facts t
  show X (((cfg0.win 2).blk t).view.emb (ix2 k o)) = _
  refine congrArg X (funext fun a => Fin.ext ?_)
  match a with
  | ⟨0, _⟩ => show win0_2.index t (0 : Fin 2) * 128 + 1 * k.val = k.val; omega
  | ⟨1, _⟩ => show win0_2.index t (1 : Fin 2) * 128 + 1 * o.val = o.val; omega

theorem whole3_read (X : S128x128.Idx → EReal) (t : Fin cfg0.N) (k o : Fin 128) :
    ((cfg0.win 3).blk t).view.read (Elt Ideal) X (ix2 k o) = X (ix2 k o) := by
  obtain ⟨-, -, -, -, -, -, e0, e1, -⟩ := idx_facts t
  show X (((cfg0.win 3).blk t).view.emb (ix2 k o)) = _
  refine congrArg X (funext fun a => Fin.ext ?_)
  match a with
  | ⟨0, _⟩ => show win0_3.index t (0 : Fin 2) * 128 + 1 * k.val = k.val; omega
  | ⟨1, _⟩ => show win0_3.index t (1 : Fin 2) * 128 + 1 * o.val = o.val; omega

/-- The resident bias window's block is the whole bias at every point. -/
theorem whole4_read (X : S128.Idx → EReal) (t : Fin cfg0.N) (o : Fin 128) :
    ((cfg0.win 4).blk t).view.read (Elt Ideal) X (ix1 o) = X (ix1 o) := by
  obtain ⟨-, -, -, -, -, -, -, -, e0, -⟩ := idx_facts t
  show X (((cfg0.win 4).blk t).view.emb (ix1 o)) = _
  refine congrArg X (funext fun a => Fin.ext ?_)
  match a with
  | ⟨0, _⟩ => show win0_4.index t (0 : Fin 1) * 128 + 1 * o.val = o.val; omega

/-! ### Each tile is its window's block of the array the launch finds -/

theorem featTile_eq (c : Dev nD) (t : Fin cfg0.N) :
    featTile m c t = ((cfg0.win 0).blk t).view.read (Elt Ideal) (feat m c) :=
  (rfl : featTile m c t = ((cfg0.win 0).blk t).view.read (Elt Ideal) (V m c main_arg0)).trans
    (congrArg (((cfg0.win 0).blk t).view.read (Elt Ideal)) (V_main_arg0 m c))

theorem aggrTile_eq (c : Dev nD) (t : Fin cfg0.N) :
    aggrTile m c t = ((cfg0.win 1).blk t).view.read (Elt Ideal) (aggr m c) :=
  (rfl : aggrTile m c t = ((cfg0.win 1).blk t).view.read (Elt Ideal) (V m c main_v18)).trans
    (congrArg (((cfg0.win 1).blk t).view.read (Elt Ideal)) (V_aggr m c))

theorem wloTile_eq (c : Dev nD) (t : Fin cfg0.N) :
    wloTile m c t = ((cfg0.win 2).blk t).view.read (Elt Ideal) (V m c main_v21) := rfl

theorem whiTile_eq (c : Dev nD) (t : Fin cfg0.N) :
    whiTile m c t = ((cfg0.win 3).blk t).view.read (Elt Ideal) (V m c main_v24) := rfl

theorem biasTile_eq (c : Dev nD) (t : Fin cfg0.N) :
    biasTile m c t = ((cfg0.win 4).blk t).view.read (Elt Ideal) (bias m c) :=
  (rfl : biasTile m c t = ((cfg0.win 4).blk t).view.read (Elt Ideal) (V m c main_arg2)).trans
    (congrArg (((cfg0.win 4).blk t).view.read (Elt Ideal)) (V_main_arg2 m c))

theorem featTile_apply (c : Dev nD) (t : Fin cfg0.N) (r : Fin 5000) (k : Fin 128) :
    featTile m c t (ix2 r k) = feat m c (ix2 (node t r) k) :=
  (congrFun (featTile_eq m c t) (ix2 r k)).trans (rows0_read (feat m c) t r k)

theorem aggrTile_apply (c : Dev nD) (t : Fin cfg0.N) (r : Fin 5000) (k : Fin 128) :
    aggrTile m c t (ix2 r k) = aggr m c (ix2 (node t r) k) :=
  (congrFun (aggrTile_eq m c t) (ix2 r k)).trans (rows1_read (aggr m c) t r k)

theorem wloTile_apply (c : Dev nD) (t : Fin cfg0.N) (k o : Fin 128) :
    wloTile m c t (ix2 k o) = wts m c (ix2 o (lo k)) :=
  (congrFun (wloTile_eq m c t) (ix2 k o)).trans ((whole2_read (V m c main_v21) t k o).trans (wlo_apply m c k o))

theorem whiTile_apply (c : Dev nD) (t : Fin cfg0.N) (k o : Fin 128) :
    whiTile m c t (ix2 k o) = wts m c (ix2 o (hi k)) :=
  (congrFun (whiTile_eq m c t) (ix2 k o)).trans ((whole3_read (V m c main_v24) t k o).trans (whi_apply m c k o))

theorem biasTile_apply (c : Dev nD) (t : Fin cfg0.N) (o : Fin 128) :
    biasTile m c t (ix1 o) = bias m c (ix1 o) :=
  (congrFun (biasTile_eq m c t) (ix1 o)).trans (whole4_read (bias m c) t o)

/-- The tile's affine image at row r is the arrays' affine image at the node the row stands for. -/
theorem tlin_eq (c : Dev nD) (t : Fin cfg0.N) (r : Fin 5000) (o : Fin 128) :
    tlin (featTile m c t) (aggrTile m c t) (wloTile m c t) (whiTile m c t) (biasTile m c t) r o
      = lin (feat m c) (aggr m c) (wts m c) (bias m c) (node t r) o := by
  unfold tlin lin
  refine congrArg₂ (· + ·) (congrArg₂ (· + ·) ?_ ?_) (biasTile_apply m c t o)
  · exact Finset.sum_congr rfl fun k _ => congrArg₂ (· * ·) (featTile_apply m c t r k) (wloTile_apply m c t k o)
  · exact Finset.sum_congr rfl fun k _ => congrArg₂ (· * ·) (aggrTile_apply m c t r k) (whiTile_apply m c t k o)

/-! ## What a point writes back, and the cover -/

/-- Row r, output o of the result window's block at point t is the array's entry at node 5000·t + r. -/
theorem out5_read (X : S100000x128.Idx → EReal) (t : Fin cfg0.N) (r : Fin 5000) (o : Fin 128) :
    ((cfg0.win 5).blk t).view.read (Elt Ideal) X (ix2 r o) = X (ix2 (node t r) o) := by
  obtain ⟨-, -, -, -, -, -, -, -, -, e0, e1⟩ := idx_facts t
  show X (((cfg0.win 5).blk t).view.emb (ix2 r o)) = _
  refine congrArg X (funext fun a => Fin.ext ?_)
  match a with
  | ⟨0, _⟩ => show win0_5.index t (0 : Fin 2) * 5000 + 1 * r.val = t.val * 5000 + r.val; omega
  | ⟨1, _⟩ => show win0_5.index t (1 : Fin 2) * 128 + 1 * o.val = o.val; omega

/-- WHAT POINT t WRITES BACK is block t of the bundle function of the arrays. -/
theorem flushed_eq (c : Dev nD) (t : Fin cfg0.N) :
    (dats m 0 c).flushed 5 t
      = ((cfg0.win 5).blk t).view.read (Elt Ideal) (bundle (feat m c) (aggr m c) (wts m c) (bias m c)) := by
  rw [Value.flushed5]
  unfold out0_5
  rw [View.canon_unit_zero off2]
  simp only [View.ld_unit_zero (S := S5000x128) off2, View.ld_unit_zero (S := S128x128) off2, View.ld_unit_zero (S := S128) off1]
  funext j
  obtain ⟨r, o, rfl⟩ : ∃ (r : Fin 5000) (o : Fin 128), j = ix2 r o := ⟨j 0, j 1, eq_ix2 j⟩
  rw [out5_read, bundle_ix2]
  show k0_pay1 (F := Ideal) (featTile m c t) (aggrTile m c t) (wloTile m c t) (whiTile m c t) (biasTile m c t) (ix2 r o) = _
  rw [pay_apply]
  unfold out sqnorm
  simp only [tlin_eq]

/-- An index of the array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every index of the array lies in some point's block: row n in block n / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, -, -, -, -, -, e0, e1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the run is the bundle function of the arrays. -/
theorem final (c : Dev nD) :
    (dats m 0 c).arrAt 5 cfg0.N = bundle (feat m c) (aggr m c) (wts m c) (bias m c) :=
  (dats m 0 c).arrAt_eq_of_cover 5 (bundle (feat m c) (aggr m c) (wts m c) (bias m c)) (fun t _ => flushed_eq m c t) cover

/-- THE KERNEL'S RUN, read: every weakly fair execution ends with the result at the bundle function of the launch
    contents and the arguments unchanged. -/
theorem run : θ_run defs (onTc (τ := τ) (main (F := Ideal))) ⟨m, fun _ => 0, ρ⟩ fun r => ∀ c : Dev nD,
      r.2.mem ((c : Thread nD τ).loc main_v25) = bundle (feat m c) (aggr m c) (wts m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.lean ====
/-
  A graph layer that bundles each node's features with the mean of its neighbours' features.

  Both programs first form, for every node, the mean over its incoming edges of the source nodes' feature rows (a
  gather by source node, a sum by destination node, a division by the in-degree clamped below at one); this part is the
  same chain of host operations in both and is never opened. Then each node's row `h n` and aggregated row `c n` go
  through one affine map and a row normalisation:
    `y n o = Σ_j [h n ; c n] j · W o j + b o`,   result `= max (y n o / max (‖y n‖, ε), 0)`.
  The reference concatenates `h n` and `c n` and takes one product over 256 columns. The kernel never forms the
  concatenation: on tiles of 5000 nodes it multiplies `h` by the first 128 columns of `W` and `c` by the last 128
  and adds the two products. The two agree because a sum over 256 indices is the sum over the first 128 plus the sum
  over the last 128, which holds on the extended reals without any finiteness of the inputs; the norm, the threshold,
  the division and the clamp are the same operations on both sides, and the narrowing of the kernel's matrix operands
  to a shorter float format is the identity on the extended reals.

  The kernel's frame and the word-level kernel's frame are the generated frame certificates; the reference's frame is
  its generated run with the result dropped; no operation was rewritten when the kernel was idealized, so that
  conjunct is trivial.
-/
import proofs.«109120_j6957847019592_1_alg».proof.Defs
import proofs.«109120_j6957847019592_1_alg».proof.Proof.Gen.Kernel
import proofs.«109120_j6957847019592_1_alg».proof.Proof.Gen.Kernel.Skeleton
import proofs.«109120_j6957847019592_1_alg».proof.Proof.Gen.Kernel.Launch
import proofs.«109120_j6957847019592_1_alg».proof.Proof.Gen.Kernel.Points
import proofs.«109120_j6957847019592_1_alg».proof.Proof.Gen.Kernel.Frame
import proofs.«109120_j6957847019592_1_alg».proof.Proof.Gen.KernelIdeal
import proofs.«109120_j6957847019592_1_alg».proof.Proof.Gen.KernelIdeal.Skeleton
import proofs.«109120_j6957847019592_1_alg».proof.Proof.Gen.KernelIdeal.Launch
import proofs.«109120_j6957847019592_1_alg».proof.Proof.Gen.KernelIdeal.Points
import proofs.«109120_j6957847019592_1_alg».proof.Proof.Gen.KernelIdeal.Frame
import proofs.«109120_j6957847019592_1_alg».proof.Proof.Gen.ReferenceIdeal
import proofs.«109120_j6957847019592_1_alg».proof.Proof.Gen.Pre_finite_inputs
import proofs.«109120_j6957847019592_1_alg».proof.Proof.Gen.KernelIdeal.Value
import proofs.«109120_j6957847019592_1_alg».proof.Proof.Gen.ReferenceIdeal.Run
import proofs.«109120_j6957847019592_1_alg».proof.Proof.Gen.ReferenceIdeal.Read
import proofs.«109120_j6957847019592_1_alg».proof.Proof.BundleSpec
import proofs.«109120_j6957847019592_1_alg».proof.Proof.RefBundle
import proofs.«109120_j6957847019592_1_alg».proof.Proof.NodeArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the bundle function of the features, the aggregated features, the weights and
    the bias: the kernel's by its tiles covering the array, the reference's index by index; the arguments agree. -/
theorem algebraic : Cert.algebraic_KernelIdeal_ReferenceIdeal := by
  intro m ρ m' ρ' _ hagree
  refine ⟨fun c => Cert.Bundle.bundle (Cert.KernelIdeal.Entry.feat m c) (Cert.KernelIdeal.Entry.aggr m c)
    (Cert.KernelIdeal.Entry.wts m c) (Cert.KernelIdeal.Entry.bias m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
